-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S1600000 : Shape := ⟨1, ![1600000]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S1600000 : S_.BroadcastsInDim S1600000 (![] : Fin 0 → Fin S1600000.rank)
  reducesTo_S1600000_S_d0 : S1600000.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x2048x4096 .f32) (main_arg1 : FVec F S1600000 .f32) (main_arg2 : IVec S1600000 32) (main_arg3 : IVec S1600000 32) (main_arg4 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2x2048x4096 : Shape := ⟨3, ![2, 2048, 4096]⟩
abbrev S1600000 : Shape := ⟨1, ![1600000]⟩
abbrev S4096 : Shape := ⟨1, ![4096]⟩
abbrev S_ : Shape := ⟨0, ![]⟩
abbrev S4096x4096 : Shape := ⟨2, ![4096, 4096]⟩
abbrev S1600000x1 : Shape := ⟨2, ![1600000, 1]⟩
abbrev S1600000x2 : Shape := ⟨2, ![1600000, 2]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 29
  | .vmem => 9
  | .smem => 0
  | _ => 0

abbrev bufTy : (tb : Table) → Fin (tcTables nBuf tb) → BufTy
  | .hbm, ⟨0, _⟩ => ⟨S2x2048x4096, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S4096, .f32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x1, .i32⟩
  | .hbm, ⟨23, _⟩ => ⟨S1600000x2, .i32⟩
  | .hbm, ⟨24, _⟩ => ⟨S4096x4096, .f32⟩
  | .hbm, ⟨25, _⟩ => ⟨S4096x4096, .f32⟩
  | .hbm, ⟨26, _⟩ => ⟨S1x4096, .f32⟩
  | .hbm, ⟨27, _⟩ => ⟨S4096x4096, .f32⟩
  | .hbm, ⟨28, _⟩ => ⟨S2x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  shapeCasts_S2x2048x4096_S4096x4096 : S2x2048x4096.ShapeCasts S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S4096x4096_S2x2048x4096 : S4096x4096.ShapeCasts S2x2048x4096
  scatter_S4096x4096_S1600000x2_S1600000_n_01_01_1_wf : ScatterDims.WF S4096x4096 S1600000x2 S1600000 [] [0, 1] [0, 1] 1
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def scatter_S4096x4096_S1600000x2_S1600000_n_01_01_1 : ScatterDims S4096x4096 S1600000x2 S1600000 where
  updateWindowDims := []
  insertedWindowDims := [0, 1]
  scatterDimsToOperandDims := [0, 1]
  indexVectorDim := 1
  wf := scatter_S4096x4096_S1600000x2_S1600000_n_01_01_1_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v15) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S1600000 : Shape := ⟨1, ![1600000]⟩
abbrev S4096 : Shape := ⟨1, ![4096]⟩
abbrev S_ : Shape := ⟨0, ![]⟩
abbrev S4096x4096 : Shape := ⟨2, ![4096, 4096]⟩
abbrev S1600000x1 : Shape := ⟨2, ![1600000, 1]⟩
abbrev S1600000x2 : Shape := ⟨2, ![1600000, 2]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S4096, .f32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x1, .i32⟩
  | .hbm, ⟨23, _⟩ => ⟨S1600000x2, .i32⟩
  | .hbm, ⟨24, _⟩ => ⟨S4096x4096, .f32⟩
  | .hbm, ⟨25, _⟩ => ⟨S2x2048x4096, .f32⟩
  | .hbm, ⟨26, _⟩ => ⟨S1x1x4096, .f32⟩
  | .hbm, ⟨27, _⟩ => ⟨S2x2048x4096, .f32⟩
  | .hbm, ⟨28, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  scatter_S4096x4096_S1600000x2_S1600000_n_01_01_1_wf : ScatterDims.WF S4096x4096 S1600000x2 S1600000 [] [0, 1] [0, 1] 1
  dot_S2x2048x4096_S4096x4096_S2x2048x4096_2_1_01_0_n_n_wf : DotDims.WF S2x2048x4096 S4096x4096 S2x2048x4096 [2] [1] [0, 1] [0] [] []

variable [Facts₀]

def scatter_S4096x4096_S1600000x2_S1600000_n_01_01_1 : ScatterDims S4096x4096 S1600000x2 S1600000 where
  updateWindowDims := []
  insertedWindowDims := [0, 1]
  scatterDimsToOperandDims := [0, 1]
  indexVectorDim := 1
  wf := scatter_S4096x4096_S1600000x2_S1600000_n_01_01_1_wf
def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Step.lean ====
/-
  What one grid point leaves behind, as pure terms of what it loaded.

  The kernel body keeps a running block product in a VMEM scratch block acc:
    * at the first step of a contraction sweep (k = 0) it stores the zero block, reads it back and stores
      0 + a * b^T of the two input blocks;
    * at every other step it stores acc + a * b^T over what the step before left;
    * at the last step (k = 3) it also stores acc + (bias row) into the output block, reading the scratch it
      has just written.
  Each lemma below opens one case's stores: the last store through the whole block decides the contents, and a
  load of the block after such a store reads that store's value.
-/
import proofs.«109182_j9861244911617_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Step

open Cert.KernelIdeal Cert.KernelIdeal.Gen

variable {F : FTy → Type} [FloatOps F]

/-- A whole-block access starts at offset zero on both axes. -/
theorem hz : (![0, 0] : Fin 2 → Nat) = fun _ => 0 := funext fun a => by fin_cases a <;> rfl

/-- A middle step (k = 1, 2): the scratch holding acc ends at acc + a * b^T. -/
theorem scratch_mid (c : Dev nD) (i : grid0.Coords)
    (a3 : Memref sig .tc .vmem S1024x1024 .f32) (h3 : a3.IsWhole) (a4 : Memref sig .tc .vmem S1024x1024 .f32) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (hc0 : ¬cond0_0 i) (hc1 : ¬cond0_1 i)
    (x0 x1 : Vec F S1024x1024 .f32) (x2 : Vec F S1x1024 .f32) (acc : Vec F S1024x1024 .f32) :
    sout0_B_0 c i a3 h3 a4 h4 a5 h5 a6 h6 a7 h7 hc0 hc1 x0 x1 x2 acc = k0_pay2 x0 x1 acc := by
  unfold sout0_B_0
  rw [View.read_writes_eq_canon _ _ _ (scover0_B_0 c i a3 h3 a4 h4 a5 h5 a6 h6 a7 h7 hc0 hc1 x0 x1 x2 acc)]
  unfold kernelRun0_B
  dsimp only
  sl_unfold_words
  rw [View.canon_unit_zero hz]
  simp only [View.readAt_eq_ld, h3.read_unread, h4.read_unread, h7.read_unread, View.ld_unit_zero (S := S1024x1024) hz]

/-- The last step (k = 3) leaves the scratch as a middle step does. -/
theorem scratch_last (c : Dev nD) (i : grid0.Coords)
    (a3 : Memref sig .tc .vmem S1024x1024 .f32) (h3 : a3.IsWhole) (a4 : Memref sig .tc .vmem S1024x1024 .f32) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (hc0 : ¬cond0_0 i) (hc1 : cond0_1 i)
    (x0 x1 : Vec F S1024x1024 .f32) (x2 : Vec F S1x1024 .f32) (acc : Vec F S1024x1024 .f32) :
    sout0_C_0 c i a3 h3 a4 h4 a5 h5 a6 h6 a7 h7 hc0 hc1 x0 x1 x2 acc = k0_pay2 x0 x1 acc := by
  unfold sout0_C_0
  rw [View.read_writes_eq_canon _ _ _ (scover0_C_0 c i a3 h3 a4 h4 a5 h5 a6 h6 a7 h7 hc0 hc1 x0 x1 x2 acc)]
  unfold kernelRun0_C
  dsimp only
  sl_unfold_words
  rw [View.canon_unit_zero hz]
  simp only [View.readAt_eq_ld, h3.read_unread, h4.read_unread, h7.read_unread, View.ld_unit_zero (S := S1024x1024) hz]

/-- The last step's output block: the scratch it has just written, plus the bias row on every row. -/
theorem out_last (c : Dev nD) (i : grid0.Coords)
    (a3 : Memref sig .tc .vmem S1024x1024 .f32) (h3 : a3.IsWhole) (a4 : Memref sig .tc .vmem S1024x1024 .f32) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (hc0 : ¬cond0_0 i) (hc1 : cond0_1 i)
    (x0 x1 : Vec F S1024x1024 .f32) (x2 : Vec F S1x1024 .f32) (acc : Vec F S1024x1024 .f32) :
    out0_C_3 c i a3 h3 a4 h4 a5 h5 a6 h6 a7 h7 hc0 hc1 x0 x1 x2 acc = k0_pay3 (k0_pay2 x0 x1 acc) x2 := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero hz]
  simp only [View.readAt_eq_ld, h3.read_unread, h4.read_unread, h5.read_unread, h7.read_unread,
    View.ld_unit_zero (S := S1024x1024) hz, View.ld_unit_zero (S := S1x1024) hz,
    View.readCov_unit_zero (S := S1024x1024) _ hz]

/-- The first step (k = 0): the zero block is stored and read back, so the scratch ends at 0 + a * b^T. -/
theorem scratch_first (c : Dev nD) (i : grid0.Coords)
    (a3 : Memref sig .tc .vmem S1024x1024 .f32) (h3 : a3.IsWhole) (a4 : Memref sig .tc .vmem S1024x1024 .f32) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (hc0 : cond0_0 i) (hc1 : ¬cond0_1 i)
    (x0 x1 : Vec F S1024x1024 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

end Cert.KernelIdeal.Step

end
-- ==== Proof.Pay.lean ====
/-
  The body's three stored values, read at one entry of the block, over the extended reals.

  With a, b the two loaded [1024, 1024] blocks and acc the scratch block:
    * the reset value is 0 everywhere;
    * the accumulated value at (p, q) is acc(p, q) + sum over k < 1024 of a(p, k) * b(q, k): narrowing to bf16 changes
      nothing over the extended reals, and the block product contracts the second axis of both operands into a zero
      accumulator;
    * the output value at (p, q) is acc(p, q) + bias(0, q): the one bias row is repeated on every row.
-/
import proofs.«109182_j9861244911617_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem

namespace Cert.KernelIdeal.Pay

open Cert.KernelIdeal Cert.KernelIdeal.Gen Idealize.ShloMosaic.ValueIdx
open scoped BigOperators

/-! ## The block product's operand indices, axis by axis -/

theorem lhs_blk_0 (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_blk_1 (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q
theorem rhs_blk_0 (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_blk_1 (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-! ## The three stored values at an entry -/

/-- The reset value is zero at every entry. -/
theorem zero_apply (j : S1024x1024.Idx) : (k0_pay1 (F := Ideal)) j = 0 := by
  unfold k0_pay1
  simp only [shapeCast_self]
  show Ideal.ofBits .f32 0x00000000#32 = 0
  exact Ideal.ofBits_zero_f32

/-- The accumulated value at (p, q): acc(p, q) plus row p of a against row q of b. -/
theorem accum_apply (a b acc : Vec Ideal S1024x1024 .f32) (p q : Fin 1024) :
    k0_pay2 a b acc (ix2 p q) = acc (ix2 p q) + ∑ k : Fin 1024, a (ix2 p k) * b (ix2 q k) := by
  unfold k0_pay2
  simp only [shapeCast_self]
  refine congrArg (acc (ix2 p q) + ·) ?_
  refine (Ideal.matmul_constant_zero_apply dot_S1024x1024_S1024x1024_S1024x1024_1_1_0_0_n_n none _ _ (ix2 p q)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun d => Fin.ext (by
    match d with
    | ⟨0, _⟩ => exact lhs_blk_0 _ _
    | ⟨1, _⟩ => exact (lhs_blk_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun d => Fin.ext (by
    match d with
    | ⟨0, _⟩ => exact rhs_blk_0 _ _
    | ⟨1, _⟩ => exact (rhs_blk_1 _ _).trans hk)
  rw [el, er]
  rfl

/-- The output value at (p, q): acc(p, q) plus the bias row's entry q. -/
theorem biased_apply (acc : Vec Ideal S1024x1024 .f32) (bias : Vec Ideal S1x1024 .f32) (p q : Fin 1024) :
    k0_pay3 acc bias (ix2 p q) = acc (ix2 p q) + bias (ix2 (0 : Fin 1) q) := by
  unfold k0_pay3
  simp only [shapeCast_self]
  refine congrArg (acc (ix2 p q) + ·) ?_
  exact broadcastTo_1b_ab_apply _ _ p q

end Cert.KernelIdeal.Pay

end
-- ==== Proof.Sweep.lean ====
/-
  What the scratch block and the output block hold, point by point.

  The grid is 4 x 4 x 4 with the contraction step k innermost, so the points 4g, 4g+1, 4g+2, 4g+3 are one sweep over k
  for one output block. Writing T(n)(p, q) for step n's contribution, the sum over k' < 1024 of a_n(p, k') * b_n(q, k')
  of the two blocks point n loads, the scratch after point 4g+k holds, at (p, q),

      T(4g)(p, q) + T(4g+1)(p, q) + ... + T(4g+k)(p, q)

  (the reset contributes 0 + T(4g), and 0 is neutral), by induction on k; and the output block written at point 4g+3
  holds the whole sweep's sum plus the bias row.
-/
import proofs.«109182_j9861244911617_1_alg».proof.Proof.Step
import proofs.«109182_j9861244911617_1_alg».proof.Proof.Pay

noncomputable section

open Idealize.ShloMosaic Idealize.ShloMosaic.TcCoe Idealize.SL.Sem

namespace Cert.KernelIdeal.Sweep

open Cert.KernelIdeal Cert.KernelIdeal.Gen Idealize.ShloMosaic.ValueIdx
open scoped BigOperators

variable (m : (ℓ : Loc nD τ sig) → Buf (Elt Ideal) ℓ)

/-- The blocks point t loads, at their literal shapes: a block of the activations, a block of the weight matrix,
    a block of the bias row. -/
abbrev ablk (c : Dev nD) (t : Fin cfg0.N) : Vec Ideal S1024x1024 .f32 := iblk m c 0 t
abbrev bblk (c : Dev nD) (t : Fin cfg0.N) : Vec Ideal S1024x1024 .f32 := iblk m c 1 t
abbrev rblk (c : Dev nD) (t : Fin cfg0.N) : Vec Ideal S1x1024 .f32 := iblk m c 2 t

/-- Step n's contribution at (p, q): row p of its activation block against row q of its weight block
    (0 past the grid's last point, so that a sum over steps carries no bounds). -/
def term (c : Dev nD) (n : ℕ) (p q : Fin 1024) : EReal :=
  if h : n < cfg0.N then ∑ k : Fin 1024, ablk m c ⟨n, h⟩ (ix2 p k) * bblk m c ⟨n, h⟩ (ix2 q k) else 0

theorem term_of_lt (c : Dev nD) (n : ℕ) (h : n < cfg0.N) (p q : Fin 1024) :
    term m c n p q = ∑ k : Fin 1024, ablk m c ⟨n, h⟩ (ix2 p k) * bblk m c ⟨n, h⟩ (ix2 q k) := dif_pos h

/-- The scratch after point 4g+k is the sum of the sweep's contributions so far. -/
theorem scratch_eq (c : Dev nD) (g : ℕ) : ∀ (k : ℕ) (hk : k < 4) (h : 4 * g + k < cfg0.N) (p q : Fin 1024),
    (outsAt0 m c (4 * g + k) h).2 (ix2 p q) = ∑ s ∈ Finset.range (k + 1), term m c (4 * g + s) p q
  | 0, _, h, p, q => by
    have h0 : (⟨4 * g + 0, h⟩ : Fin cfg0.N).val % 4 = 0 := by dsimp only; omega
    have h1 : ¬(⟨4 * g + 0, h⟩ : Fin cfg0.N).val % 4 = 3 := by dsimp only; omega
    rw [outsAt0_A m c ⟨4 * g + 0, h⟩ h0 h1]
    dsimp only
    rw [Step.scratch_first]
    refine (Pay.accum_apply (ablk m c ⟨4 * g + 0, h⟩) (bblk m c ⟨4 * g + 0, h⟩) (k0_pay1 (F := Ideal)) p q).trans ?_
    rw [Pay.zero_apply, zero_add, Finset.sum_range_one, term_of_lt m c _ h]
  | k + 1, hk, h, p, q => by
    have h0 : ¬(⟨4 * g + (k + 1), h⟩ : Fin cfg0.N).val % 4 = 0 := by dsimp only; omega
    have hprev : 4 * g + k < cfg0.N := by omega
    have ih := scratch_eq c g k (by omega) hprev p q
    rw [Finset.sum_range_succ, ← ih, term_of_lt m c _ h]
    by_cases h1 : (⟨4 * g + (k + 1), h⟩ : Fin cfg0.N).val % 4 = 3
    · rw [outsAt0_C m c ⟨4 * g + (k + 1), h⟩ h0 h1]
      dsimp only
      rw [Step.scratch_last]
      exact Pay.accum_apply (ablk m c ⟨4 * g + (k + 1), h⟩) (bblk m c ⟨4 * g + (k + 1), h⟩) (outsAt0 m c (4 * g + k) hprev).2 p q
    · rw [outsAt0_B m c ⟨4 * g + (k + 1), h⟩ h0 h1]
      dsimp only
      rw [Step.scratch_mid]
      exact Pay.accum_apply (ablk m c ⟨4 * g + (k + 1), h⟩) (bblk m c ⟨4 * g + (k + 1), h⟩) (outsAt0 m c (4 * g + k) hprev).2 p q

/-- The output block written at the sweep's last point: the whole sweep's sum plus the bias row. -/
theorem out_eq (c : Dev nD) (g : ℕ) (h : 4 * g + 3 < cfg0.N) (p q : Fin 1024) :
    (outsAt0 m c (4 * g + 3) h).1 (ix2 p q)
      = (∑ s ∈ Finset.range 4, term m c (4 * g + s) p q) + rblk m c ⟨4 * g + 3, h⟩ (ix2 (0 : Fin 1) q) := by
  have h0 : ¬(⟨4 * g + 3, h⟩ : Fin cfg0.N).val % 4 = 0 := by dsimp only; omega
  have h1 : (⟨4 * g + 3, h⟩ : Fin cfg0.N).val % 4 = 3 := by dsimp only; omega
  have hprev : 4 * g + 2 < cfg0.N := by omega
  have ih := scratch_eq m c g 2 (by omega) hprev p q
  rw [Finset.sum_range_succ, ← ih, term_of_lt m c _ h]
  rw [outsAt0_C m c ⟨4 * g + 3, h⟩ h0 h1]
  dsimp only
  rw [Step.out_last]
  refine (Pay.biased_apply (k0_pay2 (ablk m c ⟨4 * g + 3, h⟩) (bblk m c ⟨4 * g + 3, h⟩) (outsAt0 m c (4 * g + 2) hprev).2) (rblk m c ⟨4 * g + 3, h⟩) p q).trans ?_
  refine congrArg (· + rblk m c ⟨4 * g + 3, h⟩ (ix2 (0 : Fin 1) q)) ?_
  exact Pay.accum_apply (ablk m c ⟨4 * g + 3, h⟩) (bblk m c ⟨4 * g + 3, h⟩) (outsAt0 m c (4 * g + 2) hprev).2 p q

end Cert.KernelIdeal.Sweep

end
-- ==== Proof.Blocks.lean ====
/-
  Where each loaded block sits in its array.

  Point t of the 4 x 4 x 4 grid (t = 16 i + 4 j + k, the contraction step k innermost) loads
    * the activation block at block-row i = t / 16 and block-column k = t % 4 of the [4096, 4096] activations,
    * the weight block at block-row j = t / 4 % 4 and block-column k = t % 4 of the [4096, 4096] weight matrix,
    * the bias block at block-column j of the [1, 4096] bias row,
  and the output block sits at block-row i, block-column j. An entry (p, q) of a block at block index (u, v) is the
  array's entry (1024 u + p, 1024 v + q).
-/
import proofs.«109182_j9861244911617_1_alg».proof.Proof.Gen.KernelIdeal.Frame
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx

/-- The four windows' block indices at every grid point, decided over the 64 points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-! ## A block's entry as an array index -/

/-- The activation block: block-row t / 16, block-column t % 4. -/
theorem emb0 (t : Fin cfg0.N) (p : Fin 1024) (k : Fin 1024) (r : Fin 4096) (s : Fin 4096)
    (hr : r.val = 1024 * (t.val / 16) + p.val) (hs : s.val = 1024 * (t.val % 4) + k.val) :
    ((cfg0.win 0).blk t).view.emb (ix2 p k) = ix2 r s := by
  obtain ⟨e0, e1, e2, e3, e4, e5, e6, e7⟩ := idx_facts t
  funext a; apply Fin.ext
  match a with
  | ⟨0, _⟩ => show win0_0.index t (0 : Fin 2) * 1024 + 1 * p.val = r.val; omega
  | ⟨1, _⟩ => show win0_0.index t (1 : Fin 2) * 1024 + 1 * k.val = s.val; omega

/-- The weight block: block-row t / 4 % 4, block-column t % 4. -/
theorem emb1 (t : Fin cfg0.N) (p : Fin 1024) (k : Fin 1024) (r : Fin 4096) (s : Fin 4096)
    (hr : r.val = 1024 * (t.val / 4 % 4) + p.val) (hs : s.val = 1024 * (t.val % 4) + k.val) :
    ((cfg0.win 1).blk t).view.emb (ix2 p k) = ix2 r s := by
  obtain ⟨e0, e1, e2, e3, e4, e5, e6, e7⟩ := idx_facts t
  funext a; apply Fin.ext
  match a with
  | ⟨0, _⟩ => show win0_1.index t (0 : Fin 2) * 1024 + 1 * p.val = r.val; omega
  | ⟨1, _⟩ => show win0_1.index t (1 : Fin 2) * 1024 + 1 * k.val = s.val; omega

/-- The bias block: the one row, block-column t / 4 % 4. -/
theorem emb2 (t : Fin cfg0.N) (p : Fin 1) (k : Fin 1024) (r : Fin 1) (s : Fin 4096)
    (hr : r.val = 0) (hs : s.val = 1024 * (t.val / 4 % 4) + k.val) :
    ((cfg0.win 2).blk t).view.emb (ix2 p k) = ix2 r s := by
  obtain ⟨e0, e1, e2, e3, e4, e5, e6, e7⟩ := idx_facts t
  funext a; apply Fin.ext
  match a with
  | ⟨0, _⟩ => show win0_2.index t (0 : Fin 2) * 1 + 1 * p.val = r.val; omega
  | ⟨1, _⟩ => show win0_2.index t (1 : Fin 2) * 1024 + 1 * k.val = s.val; omega

/-- The output block: block-row t / 16, block-column t / 4 % 4. -/
theorem emb3 (t : Fin cfg0.N) (p : Fin 1024) (k : Fin 1024) (r : Fin 4096) (s : Fin 4096)
    (hr : r.val = 1024 * (t.val / 16) + p.val) (hs : s.val = 1024 * (t.val / 4 % 4) + k.val) :
    ((cfg0.win 3).blk t).view.emb (ix2 p k) = ix2 r s := by
  obtain ⟨e0, e1, e2, e3, e4, e5, e6, e7⟩ := idx_facts t
  funext a; apply Fin.ext
  match a with
  | ⟨0, _⟩ => show win0_3.index t (0 : Fin 2) * 1024 + 1 * p.val = r.val; omega
  | ⟨1, _⟩ => show win0_3.index t (1 : Fin 2) * 1024 + 1 * k.val = s.val; omega

/-! ## Reading any array through an input window's block

Stated for an arbitrary array, so that nothing here ever looks inside the array a window happens to stage. -/

/-- Through the activation window. -/
theorem read0 (A : Vec Ideal S4096x4096 .f32) (t : Fin cfg0.N) (p : Fin 1024) (k : Fin 1024) (r : Fin 4096) (s : Fin 4096)
    (hr : r.val = 1024 * (t.val / 16) + p.val) (hs : s.val = 1024 * (t.val % 4) + k.val) :
    (((cfg0.win 0).blk t).view.read (Elt Ideal) A : Vec Ideal S1024x1024 .f32) (ix2 p k) = A (ix2 r s) := by
  rw [View.read_apply, emb0 t p k r s hr hs]
  exact cast_eq _ _

/-- Through the weight window. -/
theorem read1 (A : Vec Ideal S4096x4096 .f32) (t : Fin cfg0.N) (p : Fin 1024) (k : Fin 1024) (r : Fin 4096) (s : Fin 4096)
    (hr : r.val = 1024 * (t.val / 4 % 4) + p.val) (hs : s.val = 1024 * (t.val % 4) + k.val) :
    (((cfg0.win 1).blk t).view.read (Elt Ideal) A : Vec Ideal S1024x1024 .f32) (ix2 p k) = A (ix2 r s) := by
  rw [View.read_apply, emb1 t p k r s hr hs]
  exact cast_eq _ _

/-- Through the bias window. -/
theorem read2 (A : Vec Ideal S1x4096 .f32) (t : Fin cfg0.N) (p : Fin 1) (k : Fin 1024) (r : Fin 1) (s : Fin 4096)
    (hr : r.val = 0) (hs : s.val = 1024 * (t.val / 4 % 4) + k.val) :
    (((cfg0.win 2).blk t).view.read (Elt Ideal) A : Vec Ideal S1x1024 .f32) (ix2 p k) = A (ix2 r s) := by
  rw [View.read_apply, emb2 t p k r s hr hs]
  exact cast_eq _ _

/-! ## The loaded blocks -/

variable (m : (ℓ : Loc nD τ sig) → Buf (Elt Ideal) ℓ)

/-- The three arrays the region finds, at their literal shapes: the activations as a matrix, the weight matrix,
    the bias as a one-row matrix. -/
abbrev xarr (c : Dev nD) : Vec Ideal S4096x4096 .f32 := V m c main_v15
abbrev warr (c : Dev nD) : Vec Ideal S4096x4096 .f32 := V m c main_v14
abbrev rarr (c : Dev nD) : Vec Ideal S1x4096 .f32 := V m c main_v16

/-- Entry (p, k) of the activation block at point t. -/
theorem ablk_apply (c : Dev nD) (t : Fin cfg0.N) (p : Fin 1024) (k : Fin 1024) (r : Fin 4096) (s : Fin 4096)
    (hr : r.val = 1024 * (t.val / 16) + p.val) (hs : s.val = 1024 * (t.val % 4) + k.val) :
    (iblk m c 0 t : Vec Ideal S1024x1024 .f32) (ix2 p k) = xarr m c (ix2 r s) :=
  read0 (xarr m c) t p k r s hr hs

/-- Entry (p, k) of the weight block at point t. -/
theorem bblk_apply (c : Dev nD) (t : Fin cfg0.N) (p : Fin 1024) (k : Fin 1024) (r : Fin 4096) (s : Fin 4096)
    (hr : r.val = 1024 * (t.val / 4 % 4) + p.val) (hs : s.val = 1024 * (t.val % 4) + k.val) :
    (iblk m c 1 t : Vec Ideal S1024x1024 .f32) (ix2 p k) = warr m c (ix2 r s) :=
  read1 (warr m c) t p k r s hr hs

/-- Entry (0, k) of the bias block at point t. -/
theorem rblk_apply (c : Dev nD) (t : Fin cfg0.N) (p : Fin 1) (k : Fin 1024) (r : Fin 1) (s : Fin 4096)
    (hr : r.val = 0) (hs : s.val = 1024 * (t.val / 4 % 4) + k.val) :
    (iblk m c 2 t : Vec Ideal S1x1024 .f32) (ix2 p k) = rarr m c (ix2 r s) :=
  read2 (rarr m c) t p k r s hr hs

end Cert.KernelIdeal.Blocks

end
-- ==== Proof.Split.lean ====
/-
  One fact about finite sums: a sum over 4096 consecutive indices is the sum of its four consecutive runs of 1024.
  It holds in any commutative additive monoid, so in particular over the extended reals, where it needs no finiteness:
  only that addition is associative and commutative.
-/
import Mathlib.Algebra.BigOperators.Fin
import Mathlib.Data.Fintype.BigOperators
import Mathlib.Logic.Equiv.Fin.Basic

open scoped BigOperators

namespace Cert.Split

/-- The sum of f over 0 .. 4095 is the sum over s = 0 .. 3 of the sums of f over 1024 s .. 1024 s + 1023. -/
theorem sum_blocks4 {M : Type*} [AddCommMonoid M] (f : ℕ → M) :
    ∑ s ∈ Finset.range 4, ∑ k : Fin 1024, f (1024 * s + k.val) = ∑ i : Fin 4096, f i.val := by
  rw [← Fin.sum_univ_eq_sum_range (fun s => ∑ k : Fin 1024, f (1024 * s + k.val)) 4]
  show _ = ∑ i : Fin (4 * 1024), f i.val
  rw [← Equiv.sum_comp (finProdFinEquiv (m := 4) (n := 1024)) (fun i : Fin (4 * 1024) => f i.val),
    Fintype.sum_prod_type]
  refine Finset.sum_congr rfl fun s _ => Finset.sum_congr rfl fun k _ => ?_
  rw [finProdFinEquiv_apply_val, Nat.add_comm]

end Cert.Split
-- ==== Proof.Spec.lean ====
/-
  The specification: the linear layer both programs compute, over the extended reals.

  For activations x of shape [2, 2048, 4096], a weight matrix W of shape [4096, 4096] (rows are output features) and a
  bias of shape [4096],

      y[b, s, o] = (sum over k < 4096 of x[b, s, k] * W[o, k]) + bias[o].

  The weight matrix itself is built from the coordinate-format inputs by the same host operations in both programs,
  so here it is just a matrix.
-/
import Idealize.ShloMosaic.PureOps.Ideal
import Idealize.ShloMosaic.Lib.ValueIdx

noncomputable section

open Idealize.ShloMosaic Idealize.ShloMosaic.TcCoe Idealize.SL.Sem

namespace Cert.Spec

open Idealize.ShloMosaic.ValueIdx
open scoped BigOperators

abbrev SX : Shape := ⟨3, ![2, 2048, 4096]⟩
abbrev SW : Shape := ⟨2, ![4096, 4096]⟩
abbrev SB : Shape := ⟨1, ![4096]⟩

/-- One entry of the layer's result. -/
def entry (x : SX.Idx → EReal) (W : SW.Idx → EReal) (bias : SB.Idx → EReal) (b : Fin 2) (s : Fin 2048) (o : Fin 4096) : EReal :=
  (∑ k : Fin 4096, x (ix3 b s k) * W (ix2 o k)) + bias (ix1 o)

/-- The layer's result array. -/
def linear (x : SX.Idx → EReal) (W : SW.Idx → EReal) (bias : SB.Idx → EReal) : SX.Idx → EReal :=
  fun i => entry x W bias ⟨(i 0).val, (i 0).isLt⟩ ⟨(i 1).val, (i 1).isLt⟩ ⟨(i 2).val, (i 2).isLt⟩

theorem linear_apply (x : SX.Idx → EReal) (W : SW.Idx → EReal) (bias : SB.Idx → EReal) (b : Fin 2) (s : Fin 2048) (o : Fin 4096) :
    linear x W bias (ix3 b s o) = entry x W bias b s o := rfl

end Cert.Spec

end
-- ==== Proof.Layout.lean ====
/-
  The result matrix over arbitrary operands, and the index renaming that makes it the specification.

  For matrices X, W of shape [4096, 4096] and a one-row matrix B of shape [1, 4096],

      out[r, q] = (sum over k < 4096 of X[r, k] * W[q, k]) + B[0, q].

  When X is the activations x of shape [2, 2048, 4096] read row-major as a matrix (row r = 2048 b + s), B the bias read
  as one row, and out is read back row-major at shape [2, 2048, 4096], entry (b, s, o) is the specification's: the three
  reshapes move no data, they only rename positions, and equal row-major positions is all each renaming needs.
-/
import proofs.«109182_j9861244911617_1_alg».proof.Proof.Spec
import Idealize.ShloMosaic.Lib.Pipeline.Value

noncomputable section

open Idealize.ShloMosaic Idealize.ShloMosaic.TcCoe Idealize.SL.Sem

namespace Cert.Layout

open Idealize.ShloMosaic.ValueIdx Cert.Spec
open scoped BigOperators

abbrev SM : Shape := ⟨2, ![4096, 4096]⟩
abbrev SR : Shape := ⟨2, ![1, 4096]⟩

/-- One entry of the result matrix. -/
def outEntry (X W : SM.Idx → EReal) (B : SR.Idx → EReal) (r q : Fin 4096) : EReal :=
  (∑ k : Fin 4096, X (ix2 r k) * W (ix2 q k)) + B (ix2 (0 : Fin 1) q)

/-- The result matrix. -/
def outMat (X W : SM.Idx → EReal) (B : SR.Idx → EReal) : SM.Idx → EReal :=
  fun i => outEntry X W B ⟨(i 0).val, (i 0).isLt⟩ ⟨(i 1).val, (i 1).isLt⟩

theorem outMat_apply (X W : SM.Idx → EReal) (B : SR.Idx → EReal) (r q : Fin 4096) :
    outMat X W B (ix2 r q) = outEntry X W B r q := rfl

/-- Read back at shape [2, 2048, 4096], the result matrix of the reshaped activations and bias is the layer. -/
theorem reshape_outMat (x : SX.Idx → EReal) (W : SM.Idx → EReal) (bias : SB.Idx → EReal)
    (h1 : SX.ShapeCasts SM) (h2 : SB.ShapeCasts SR) (h3 : SM.ShapeCasts SX) :
    shapeCast SX (outMat (shapeCast SM x h1) W (shapeCast SR bias h2)) h3 = linear x W bias := by
  funext i
  obtain ⟨b, s, o, rfl⟩ : ∃ (b : Fin 2) (s : Fin 2048) (o : Fin 4096), i = ix3 b s o := ⟨i 0, i 1, i 2, eq_ix3 i⟩
  have hb : b.val < 2 := b.isLt
  have hs : s.val < 2048 := s.isLt
  have hR : 2048 * b.val + s.val < 4096 := by omega
  rw [shapeCast_apply _ h3 (ix3 b s o) (ix2 (⟨2048 * b.val + s.val, hR⟩ : Fin 4096) o) (by
    rw [Shape.rowMajor_val_two, Shape.rowMajor_val_three]
    show (2048 * b.val + s.val) * 4096 + o.val = (b.val * 2048 + s.val) * 4096 + o.val
    omega)]
  rw [outMat_apply, linear_apply]
  unfold outEntry entry
  refine congrArg₂ (· + ·) (Finset.sum_congr rfl fun k _ => congrArg (· * W (ix2 o k)) ?_) ?_
  · exact shapeCast_apply _ h1 (ix2 (⟨2048 * b.val + s.val, hR⟩ : Fin 4096) k) (ix3 b s k) (by
      rw [Shape.rowMajor_val_two, Shape.rowMajor_val_three]
      show (b.val * 2048 + s.val) * 4096 + k.val = (2048 * b.val + s.val) * 4096 + k.val
      omega)
  · exact shapeCast_apply _ h2 (ix2 (0 : Fin 1) o) (ix1 o) (by
      rw [Shape.rowMajor_val_one, Shape.rowMajor_val_two]
      show o.val = 0 * 4096 + o.val
      omega)

end Cert.Layout

end
-- ==== Proof.Final.lean ====
/-
  The kernel's result array, and its run.

  Every output block is written back once, at the last step of its contraction sweep, and the 16 output blocks tile
  the [4096, 4096] result. What is written at entry (p, q) of the block at block-row u, block-column v is the sum of
  the sweep's four contributions plus the bias, and the four contributions are the four runs of 1024 of the full
  contraction over 4096 for the array entry (1024 u + p, 1024 v + q). So the result matrix is

      out[r, q] = (sum over k < 4096 of X[r, k] * W[q, k]) + B[0, q]

  of the matrices the region finds: X the activations reshaped to [4096, 4096], W the scatter-add's matrix, B the bias
  reshaped to [1, 4096]. The final reshape to [2, 2048, 4096] and the first two reshapes only rename indices
  (row r = 2048 b + s), which gives the specification's entry.
-/
import proofs.«109182_j9861244911617_1_alg».proof.Proof.Sweep
import proofs.«109182_j9861244911617_1_alg».proof.Proof.Blocks
import proofs.«109182_j9861244911617_1_alg».proof.Proof.Split
import proofs.«109182_j9861244911617_1_alg».proof.Proof.Layout

noncomputable section

open Idealize.ShloMosaic Idealize.ShloMosaic.TcCoe Idealize.SL.Sem

namespace Cert.KernelIdeal.Final

open Cert.KernelIdeal Cert.KernelIdeal.Gen Cert.KernelIdeal.Blocks Idealize.ShloMosaic.ValueIdx
open Idealize.ShloMosaic.Pipeline (Dat)
open scoped BigOperators

variable (m : (ℓ : Loc nD τ sig) → Buf (Elt Ideal) ℓ) (ρ : Dev nD → PrngReg)

/-! ## The result matrix, as one function of the matrices the region finds -/

/-- The product of row r of X and row q of W at column n, and 0 past the last column: a function of a natural
    number, so that the contraction can be cut into runs without carrying bounds. -/
def colTerm (X W : Vec Ideal S4096x4096 .f32) (r q : Fin 4096) (n : ℕ) : EReal :=
  if h : n < 4096 then X (ix2 r ⟨n, h⟩) * W (ix2 q ⟨n, h⟩) else 0

theorem colTerm_of_lt (X W : Vec Ideal S4096x4096 .f32) (r q : Fin 4096) (n : ℕ) (h : n < 4096) :
    colTerm X W r q n = X (ix2 r ⟨n, h⟩) * W (ix2 q ⟨n, h⟩) := dif_pos h

/-- The result matrix of the activations, the weight matrix and the bias row as the region finds them. -/
def outArr (c : Dev nD) : Vec Ideal S4096x4096 .f32 := Cert.Layout.outMat (xarr m c) (warr m c) (rarr m c)

/-- What the write-back at the last step of a sweep writes is that point's block of the result matrix: the sweep's
    four contributions are the four runs of 1024 of the contraction over 4096. -/
theorem flushed_eq (c : Dev nD) (t : Fin cfg0.N) (hf : (cfg0.win 3).flush t = true) :
    (dats m 0 c).flushed 3 t = ((cfg0.win 3).blk t).view.read (Elt Ideal) (outArr m c) := by
  have hN : cfg0.N = 64 := N_0
  have h3 : t.val % 4 = 3 := (flush0_3 t).mp hf
  show (cfg0.win 3).cut (grid0.coords t) ((dats m 0 c).after 3 t) = _
  rw [after0_3]
  funext j
  obtain ⟨p, q, rfl⟩ : ∃ (p q : Fin 1024), j = ix2 p q := ⟨j 0, j 1, eq_ix2 j⟩
  obtain ⟨n, hn⟩ := t
  obtain ⟨g, rfl⟩ : ∃ g, n = 4 * g + 3 := ⟨n / 4, by dsimp only at h3; omega⟩
  have hp : p.val < 1024 := p.isLt
  have hq : q.val < 1024 := q.isLt
  have hR : 1024 * ((4 * g + 3) / 16) + p.val < 4096 := by omega
  have hC : 1024 * ((4 * g + 3) / 4 % 4) + q.val < 4096 := by omega
  rw [View.read_apply, Blocks.emb3 ⟨4 * g + 3, hn⟩ p q ⟨_, hR⟩ ⟨_, hC⟩ rfl rfl]
  refine Eq.trans ?_ (cast_eq _ _).symm
  unfold outArr
  rw [Cert.Layout.outMat_apply]
  show (outsAt0 m c (4 * g + 3) hn).1 (ix2 p q) = _
  rw [Sweep.out_eq m c g hn p q]
  unfold Cert.Layout.outEntry
  refine congrArg₂ (· + ·) ?_ ?_
  · have key := Cert.Split.sum_blocks4 (colTerm (xarr m c) (warr m c) ⟨_, hR⟩ ⟨_, hC⟩)
    have hfull : (∑ k : Fin 4096, xarr m c (ix2 (⟨_, hR⟩ : Fin 4096) k) * warr m c (ix2 (⟨_, hC⟩ : Fin 4096) k))
        = ∑ i : Fin 4096, colTerm (xarr m c) (warr m c) ⟨_, hR⟩ ⟨_, hC⟩ i.val :=
      Finset.sum_congr rfl fun i _ => (colTerm_of_lt (xarr m c) (warr m c) ⟨_, hR⟩ ⟨_, hC⟩ i.val i.isLt).symm
    rw [hfull, ← key]
    refine Finset.sum_congr rfl fun s hs => ?_
    have hs4 : s < 4 := Finset.mem_range.mp hs
    have hlt : 4 * g + s < cfg0.N := by omega
    rw [Sweep.term_of_lt m c (4 * g + s) hlt]
    refine Finset.sum_congr rfl fun k _ => ?_
    have hk1 : k.val < 1024 := k.isLt
    have hk : 1024 * s + k.val < 4096 := by omega
    refine Eq.trans ?_ (colTerm_of_lt (xarr m c) (warr m c) ⟨_, hR⟩ ⟨_, hC⟩ (1024 * s + k.val) hk).symm
    exact congrArg₂ (· * ·)
      (Blocks.ablk_apply m c ⟨4 * g + s, hlt⟩ p k ⟨_, hR⟩ ⟨1024 * s + k.val, hk⟩ (by dsimp only; omega) (by dsimp only; omega))
      (Blocks.bblk_apply m c ⟨4 * g + s, hlt⟩ q k ⟨_, hC⟩ ⟨1024 * s + k.val, hk⟩ (by dsimp only; omega) (by dsimp only; omega))
  · exact Blocks.rblk_apply m c ⟨4 * g + 3, hn⟩ 0 q 0 ⟨_, hC⟩ rfl rfl

/-- An entry of the result is in a point's output block iff each coordinate is in the block's range. -/
theorem mem_blk3 (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v17).slice (win0_3.rect t)).set ↔ _
  rw [View.set_slice_whole, Rect.mem_set_unit]
  exact Iff.rfl

/-- The 16 output blocks tile the result: entry (r, q) is in the block written at the last step of the sweep for
    block-row r / 1024, block-column q / 1024. -/
theorem cover (i : S4096x4096.Idx) :
    ∃ t : Fin cfg0.N, (cfg0.win 3).flush t = true ∧ i ∈ ((cfg0.win 3).blk t).view.set := by
  have hN : cfg0.N = 64 := N_0
  have hi0 : (i 0).val < 4096 := (i 0).isLt
  have hi1 : (i 1).val < 4096 := (i 1).isLt
  obtain ⟨t, ht⟩ : ∃ t : Fin cfg0.N, t.val = 16 * ((i 0).val / 1024) + 4 * ((i 1).val / 1024) + 3 :=
    ⟨⟨16 * ((i 0).val / 1024) + 4 * ((i 1).val / 1024) + 3, by omega⟩, rfl⟩
  obtain ⟨-, -, -, -, -, -, e6, e7⟩ := Blocks.idx_facts t
  refine ⟨t, (flush0_3 t).mpr (by omega), ?_⟩
  rw [mem_blk3]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- So the result array ends holding the result matrix. -/
theorem final (c : Dev nD) : (dats m 0 c).arrAt 3 cfg0.N = outArr m c :=
  (dats m 0 c).arrAt_eq_of_cover 3 (outArr m c) (flushed_eq m c) cover

end Cert.KernelIdeal.Final

end
-- ==== Proof.Ends.lean ====
/-
  The host lines around the region, and the kernel's run at the specification.

  Before the region the host builds the weight matrix W by scatter-adding the values at their (row, column) pairs
  into a zero matrix (a negative index counts from the end), reads the activations row-major as a [4096, 4096] matrix
  and the bias as a [1, 4096] row. After the region it reads the [4096, 4096] result row-major at [2, 2048, 4096].
  The weight matrix is carried as one term: nothing here looks inside the scatter-add.
-/
import proofs.«109182_j9861244911617_1_alg».proof.Proof.Blocks
import Idealize.ShloMosaic.Lib.StableHlo.Run
import Idealize.ShloMosaic.Lib.Pipeline.Value

noncomputable section

open Idealize.ShloMosaic Idealize.ShloMosaic.TcCoe Idealize.SL.Sem

namespace Cert.KernelIdeal.Ends

open Cert.KernelIdeal Cert.KernelIdeal.Gen Cert.KernelIdeal.Blocks Idealize.ShloMosaic.ValueIdx
open Idealize.ShloMosaic.Pipeline (Dat)

/-- The weight matrix the host builds from the coordinate-format inputs. -/
def wmat (vals : (⟨S1600000, .f32⟩ : BufTy).Contents (Elt Ideal)) (rows cols : (⟨S1600000, .i32⟩ : BufTy).Contents (Elt Ideal)) :
    (⟨S4096x4096, .f32⟩ : BufTy).Contents (Elt Ideal) :=
  Host.scatterAdd (F := Ideal) scatter_S4096x4096_S1600000x2_S1600000_n_01_01_1 (broadcastInDim S4096x4096 ![] bcast_S_S4096x4096 (constant (F := Ideal) S_ .f32 0x00000000#32)) (concatenate S1600000x2 1 [⟨S1600000x1, (broadcastInDim S1600000x1 ![0] bcast_S1600000_S1600000x1_0 (select (cmpi .slt rows (broadcastInDim S1600000 ![] bcast_S_S1600000 (constantI S_ 32 0#32))) (addi rows (broadcastInDim S1600000 ![] bcast_S_S1600000 (constantI S_ 32 4096#32))) rows))⟩, ⟨S1600000x1, (broadcastInDim S1600000x1 ![0] bcast_S1600000_S1600000x1_0 (select (cmpi .slt cols (broadcastInDim S1600000 ![] bcast_S_S1600000 (constantI S_ 32 0#32))) (addi cols (broadcastInDim S1600000 ![] bcast_S_S1600000 (constantI S_ 32 4096#32))) cols))⟩] concatenates_S1600000x1_S1600000x1_S1600000x2_d1) vals

variable (m : (ℓ : Loc nD τ sig) → Buf (Elt Ideal) ℓ) (ρ : Dev nD → PrngReg)

/-! ## What the region finds -/

/-- The activations, read row-major as a matrix. -/
theorem xarr_eq (c : Dev nD) :
    xarr m c = shapeCast S4096x4096 (m ((c.tc : Thread nD τ).loc main_arg0)) shapeCasts_S2x2048x4096_S4096x4096 := by
  show StableHlo.after hostOps0 (fun b => m (c, b)) (Proc.devRef .tc main_v15) = _
  after_results <;> rfl

/-- The bias, read as a one-row matrix. -/
theorem rarr_eq (c : Dev nD) :
    rarr m c = shapeCast S1x4096 (m ((c.tc : Thread nD τ).loc main_arg4)) shapeCasts_S4096_S1x4096 := by
  show StableHlo.after hostOps0 (fun b => m (c, b)) (Proc.devRef .tc main_v16) = _
  after_results <;> rfl

set_option maxHeartbeats 2000000 in
/-- The weight matrix. -/
theorem warr_eq (c : Dev nD) :
    warr m c = wmat (m ((c.tc : Thread nD τ).loc main_arg1)) (m ((c.tc : Thread nD τ).loc main_arg2)) (m ((c.tc : Thread nD τ).loc main_arg3)) := by
  unfold wmat
  show StableHlo.after hostOps0 (fun b => m (c, b)) (Proc.devRef .tc main_v14) = _
  after_results <;> rfl

end Cert.KernelIdeal.Ends

end
-- ==== Proof.KRun.lean ====
/-
  The kernel's run, read: its result array ends at the specification's layer of the arguments.

  The frame run leaves the region's result array at the result matrix and every other buffer as the host line after the
  region leaves it; that line reads the matrix back at shape [2, 2048, 4096].
-/
import proofs.«109182_j9861244911617_1_alg».proof.Proof.Final
import proofs.«109182_j9861244911617_1_alg».proof.Proof.Ends

noncomputable section

open Idealize.ShloMosaic Idealize.ShloMosaic.TcCoe Idealize.SL.Sem

namespace Cert.KernelIdeal.Result

open Cert.KernelIdeal Cert.KernelIdeal.Gen Cert.KernelIdeal.Blocks Idealize.ShloMosaic.ValueIdx
open Idealize.ShloMosaic.Pipeline (Dat)

variable (m : (ℓ : Loc nD τ sig) → Buf (Elt Ideal) ℓ) (ρ : Dev nD → PrngReg)

/-- The program's result buffer after the line that follows the region. -/
theorem result_eq (c : Dev nD) :
    Pipeline.afterTail₀ cfgs (dats m) 0 (V0 m) [hostOps1] c main_v18
      = Cert.Spec.linear (m ((c.tc : Thread nD τ).loc main_arg0)) (Ends.wmat (m ((c.tc : Thread nD τ).loc main_arg1)) (m ((c.tc : Thread nD τ).loc main_arg2)) (m ((c.tc : Thread nD τ).loc main_arg3))) (m ((c.tc : Thread nD τ).loc main_arg4)) := by
  unfold Pipeline.afterTail₀
  show StableHlo.after hostOps1 _ (Proc.devRef .tc main_v18) = _
  after_results
  have hw : Pipeline.withArrays (cfgs 0).spec c (V0 m c) (fun w => (dats m 0 c).arrAt w (cfgs 0).N) (Proc.tc.devRef main_v17)
      = Final.outArr m c :=
    (Pipeline.withArrays_arr spec0 launch0.win.arr_inj c _ _ 3).trans (Final.final m c)
  rw [hw]
  unfold Final.outArr
  rw [Ends.xarr_eq m c, Ends.warr_eq m c, Ends.rarr_eq m c]
  exact Cert.Layout.reshape_outMat _ _ _ _ _ _

/-- The run, read: the result at the layer of the arguments, the arguments unchanged. -/
theorem run : θ_run defs (onTc (τ := τ) (main (F := Ideal))) ⟨m, fun _ => 0, ρ⟩ fun r => ∀ c : Dev nD,
      r.2.mem ((c.tc : Thread nD τ).loc main_v18) = Cert.Spec.linear (m ((c.tc : Thread nD τ).loc main_arg0)) (Ends.wmat (m ((c.tc : Thread nD τ).loc main_arg1)) (m ((c.tc : Thread nD τ).loc main_arg2)) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v18 (Pipeline.mem_restRefs_of main_v18 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.Ref.lean ====
/-
  The reference computes the specification.

  Its last three stages are a general dot product contracting the activations' last axis against the weight matrix's
  second axis, the bias broadcast over the leading axes, and their sum. Read at an entry (b, s, o) these are
  sum over k of x[b, s, k] * W[o, k], bias[o], and their sum: the specification's entry, with W the matrix the
  scatter-add stage builds.
-/
import proofs.«109182_j9861244911617_1_alg».proof.Proof.Gen.ReferenceIdeal.Read
import proofs.«109182_j9861244911617_1_alg».proof.Proof.Spec

noncomputable section

open Idealize.ShloMosaic Idealize.ShloMosaic.TcCoe Idealize.SL.Sem

namespace Cert.ReferenceIdeal.IsSpec

open Cert.ReferenceIdeal Cert.ReferenceIdeal.Read Idealize.ShloMosaic.ValueIdx
open scoped BigOperators

/-- The reference's result is the layer applied to its arguments, with the scatter-add stage's matrix as weights. -/
theorem ref_eq (x0 : (⟨S2x2048x4096, .f32⟩ : BufTy).Contents (Elt Ideal)) (x1 : (⟨S1600000, .f32⟩ : BufTy).Contents (Elt Ideal))
    (x2 x3 : (⟨S1600000, .i32⟩ : BufTy).Contents (Elt Ideal)) (x4 : (⟨S4096, .f32⟩ : BufTy).Contents (Elt Ideal)) :
    val_main_v18 (F := Ideal) x0 x1 x2 x3 x4 = Cert.Spec.linear x0 (val_main_v14 (F := Ideal) x1 x2 x3) x4 := by
  funext i
  obtain ⟨b, s, o, rfl⟩ : ∃ (b : Fin 2) (s : Fin 2048) (o : Fin 4096), i = ix3 b s o := ⟨i 0, i 1, i 2, eq_ix3 i⟩
  rw [val_main_v18_apply, val_main_v15_apply, val_main_v17_apply, val_main_v16_apply, Cert.Spec.linear_apply]
  unfold Cert.Spec.entry
  have e1 : ∀ k : Fin 4096, lidx_main_v15 (ix3 b s o) k = ix3 b s k := fun k => funext fun a => by
    match a with
    | ⟨0, _⟩ => rfl
    | ⟨1, _⟩ => rfl
    | ⟨2, _⟩ => rfl
  have e2 : ∀ k : Fin 4096, ridx_main_v15 (ix3 b s o) k = ix2 o k := fun k => funext fun a => by
    match a with
    | ⟨0, _⟩ => rfl
    | ⟨1, _⟩ => rfl
  have e3 : idx_main_v16 (idx_main_v17 (ix3 b s o)) = ix1 o := funext fun a => by
    match a with
    | ⟨0, _⟩ => rfl
  simp only [e1, e2, e3]
  rfl

end Cert.ReferenceIdeal.IsSpec

end
-- ==== Proof.lean ====
/- The certificate's five claims.

   Both programs build the same weight matrix W from the coordinate-format inputs by the same host operations and then
   compute the linear layer y[b, s, o] = (sum over k of x[b, s, k] * W[o, k]) + bias[o]:
     * the reference by one contraction over all 4096 values of k and a broadcast sum;
     * the kernel by a 4 x 4 x 4 grid of [1024, 1024] block products accumulated in a scratch block over the four
       contraction steps of a sweep (the operands narrowed to bf16, which over the extended reals changes nothing),
       the bias row added when the last step writes the output block.
   Over the extended reals the two agree because a sum over 4096 indices is the sum of its four runs of 1024 and 0 is
   neutral: addition there is associative and commutative, and nothing else is used, so the inputs' finiteness is
   never needed.
   The three frame claims are the generated frame runs; the idealization rewrote nothing, so its claim is trivial. -/
import proofs.«109182_j9861244911617_1_alg».proof.Defs
import proofs.«109182_j9861244911617_1_alg».proof.Proof.Gen.Kernel
import proofs.«109182_j9861244911617_1_alg».proof.Proof.Gen.Kernel.Skeleton
import proofs.«109182_j9861244911617_1_alg».proof.Proof.Gen.Kernel.Launch
import proofs.«109182_j9861244911617_1_alg».proof.Proof.Gen.Kernel.Points
import proofs.«109182_j9861244911617_1_alg».proof.Proof.Gen.Kernel.Frame
import proofs.«109182_j9861244911617_1_alg».proof.Proof.Gen.KernelIdeal
import proofs.«109182_j9861244911617_1_alg».proof.Proof.Gen.KernelIdeal.Skeleton
import proofs.«109182_j9861244911617_1_alg».proof.Proof.Gen.KernelIdeal.Launch
import proofs.«109182_j9861244911617_1_alg».proof.Proof.Gen.KernelIdeal.Points
import proofs.«109182_j9861244911617_1_alg».proof.Proof.Gen.KernelIdeal.Frame
import proofs.«109182_j9861244911617_1_alg».proof.Proof.Gen.ReferenceIdeal
import proofs.«109182_j9861244911617_1_alg».proof.Proof.Gen.ReferenceIdeal.Run
import proofs.«109182_j9861244911617_1_alg».proof.Proof.Gen.ReferenceIdeal.Read
import proofs.«109182_j9861244911617_1_alg».proof.Proof.Gen.Pre_finite_inputs
import proofs.«109182_j9861244911617_1_alg».proof.Proof.KRun
import proofs.«109182_j9861244911617_1_alg».proof.Proof.Ref
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two programs build their weight matrix by the same operations: one term. -/
theorem wmat_eq (vals : (⟨Cert.ReferenceIdeal.S1600000, .f32⟩ : BufTy).Contents (Elt Ideal))
    (rows cols : (⟨Cert.ReferenceIdeal.S1600000, .i32⟩ : BufTy).Contents (Elt Ideal)) :
    Cert.ReferenceIdeal.Read.val_main_v14 (F := Ideal) vals rows cols = Cert.KernelIdeal.Ends.wmat vals rows cols := by
  unfold Cert.KernelIdeal.Ends.wmat Cert.ReferenceIdeal.Read.val_main_v14 Cert.ReferenceIdeal.Read.val_main_v0
    Cert.ReferenceIdeal.Read.val_main_cst Cert.ReferenceIdeal.Read.val_main_v13 Cert.ReferenceIdeal.Read.val_main_v11
    Cert.ReferenceIdeal.Read.val_main_v12 Cert.ReferenceIdeal.Read.val_main_v5 Cert.ReferenceIdeal.Read.val_main_v10
    Cert.ReferenceIdeal.Read.val_main_v2 Cert.ReferenceIdeal.Read.val_main_v4 Cert.ReferenceIdeal.Read.val_main_v7
    Cert.ReferenceIdeal.Read.val_main_v9 Cert.ReferenceIdeal.Read.val_main_v1 Cert.ReferenceIdeal.Read.val_main_v3
    Cert.ReferenceIdeal.Read.val_main_v6 Cert.ReferenceIdeal.Read.val_main_v8 Cert.ReferenceIdeal.Read.val_main_c
    Cert.ReferenceIdeal.Read.val_main_c_0 Cert.ReferenceIdeal.Read.val_main_c_1 Cert.ReferenceIdeal.Read.val_main_c_2
  rfl

/-- Both runs end with the result at the layer of the (agreeing) arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq _ _ _ _ _).trans ?_
  rw [Cert.ReferenceIdeal.IsSpec.ref_eq, wmat_eq, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
